-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelData.lean ====
/-
  The proof data of the fused kernel's one pipeline, at any float instance.

  The kernel walks the 25 row blocks of the adjacency matrix. At grid point `t` it is handed six staging buffers:
  rows `400 t … 400 t + 399` of the adjacency matrix (window 0), the whole feature matrix (window 1), rows
  `400 t … 400 t + 399` of the feature matrix (window 2), the two weight matrices (windows 3 and 4) and the output
  block (window 5). Windows 1 and 2 are two views of ONE array, the feature matrix, both read-only. The body reads the
  five input buffers, leaves them as it found them, and stores into the output buffer one value, the payload of the
  five blocks. Stated here: each window's block at a point as read off the entry arrays, what each input buffer holds
  when the body runs (its block, fetched at this point or kept from an earlier one), what the output buffer holds after
  the body, and the pipeline's proof data over these. The feature matrix's full share is dealt in halves to its two
  windows; every other input array is held at the full share.
-/
import proofs.«163232_g29996051595531_retrytranche2_1041_4_alg».proof.Proof.Gen.Kernel.Launch
import proofs.«163232_g29996051595531_retrytranche2_1041_4_alg».proof.Proof.Gen.Kernel.Skeleton
import proofs.«163232_g29996051595531_retrytranche2_1041_4_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## The arrays at the region's entry, and each window's block -/

/-- Core `c`'s buffers when the region is entered: the launch memory (the program is the region alone). -/
abbrev V (c : Dev nD) (b : Ref sig .tc) : Buf (Elt F) ((c : Thread nD τ).loc b) := m ((c : Thread nD τ).loc b)

/-- Window `w`'s block at grid point `t`, read off its array's entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block whenever the body runs — fetched at this point, or
    kept from the last fetch while the block index has not moved — for any proof data over the entry arrays whose
    body leaves the block in place. One statement per input window; the windows are uncut and never idle. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole-buffer rectangles the body loads and stores through. -/
abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0
abbrev rRows : Rect S400x128 := Rect.unit (s := S400x128) ![0, 0] S400x128.size inb_S400x128_S400x128_0_0

/-- The output buffer after the body, from the five input blocks: its one whole-buffer store, the payload of the
    adjacency rows `a`, the feature matrix `x`, the feature rows `xr`, the self weight `ws` and the neighbour weight `wn`. -/
def outRows (a : Vec F S400x10000 .f32) (x : Vec F S10000x128 .f32) (xr : Vec F S400x128 .f32) (ws wn : Vec F S128x128 .f32) : Vec F S400x128 .f32 :=
  View.canon [⟨rRows, k0_pay1 (View.ld a rAdj) (View.ld x rFeat) (View.ld wn rW) (View.ld xr rRows) (View.ld ws rW)⟩]

/-- The one store covers the buffer. -/
theorem cover_rows (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## The proof data -/

/-- The pipeline's proof data on core `c`: the entry arrays; after the body each input buffer at its block and the
    output buffer at `outRows` of the blocks; the region invariant the core's scoped buffers that are no staging
    buffer (the body touches none); nothing owed. The feature matrix is held in halves by its two windows, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRows (iblk m c 0 t) (iblk m c 1 t) (iblk m c 2 t) (iblk m c 3 t) (iblk m c 4 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outRows (iblk m c 0 t) (iblk m c 1 t) (iblk m c 2 t) (iblk m c 3 t) (iblk m c 4 t) := by dsimp only [dats]

theorem found_0 (c : Dev nD) (t : Fin cfg0.N) (d) : (dats m 0 c).before 0 t d = iblk m c 0 t :=
  found0_of m (dats m 0 c) (A_eq m c 0) (after_0 m c) t d
theorem found_1 (c : Dev nD) (t : Fin cfg0.N) (d) : (dats m 0 c).before 1 t d = iblk m c 1 t :=
  found1_of m (dats m 0 c) (A_eq m c 1) (after_1 m c) t d
theorem found_2 (c : Dev nD) (t : Fin cfg0.N) (d) : (dats m 0 c).before 2 t d = iblk m c 2 t :=
  found2_of m (dats m 0 c) (A_eq m c 2) (after_2 m c) t d
theorem found_3 (c : Dev nD) (t : Fin cfg0.N) (d) : (dats m 0 c).before 3 t d = iblk m c 3 t :=
  found3_of m (dats m 0 c) (A_eq m c 3) (after_3 m c) t d
theorem found_4 (c : Dev nD) (t : Fin cfg0.N) (d) : (dats m 0 c).before 4 t d = iblk m c 4 t :=
  found4_of m (dats m 0 c) (A_eq m c 4) (after_4 m c) t d

/-- The shares the arrays are held at: the feature matrix in halves, the rest whole. -/
theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

end Cert.Kernel.Hand

end
-- ==== Proof.KernelBody.lean ====
/-
  The kernel body at a grid point, at any float instance.

  On six whole staging buffers — the five inputs at read contents, the output at anything — the body loads the five
  inputs, reads the output buffer once (a value it never uses), and stores the payload of the five loads over the whole
  output buffer. So it returns the inputs as it found them and the output buffer at `outRows` of them. At grid point
  `t` the inputs hold the windows' blocks, so the pipeline's obligation for the body holds at every point: the region
  invariant and what the core owes pass through unread.
-/
import proofs.«163232_g29996051595531_retrytranche2_1041_4_alg».proof.Proof.KernelData
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's triple -/

set_option maxHeartbeats 1000000 in
/-- The body on whole staging memrefs: the inputs at `a`, `x`, `xr`, `ws`, `wn` and the output at anything run to the
    continuation holding the inputs unchanged and the output at `outRows a x xr ws wn`. -/
theorem body_run (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S400x128 .f32) (harg6 : arg6.IsWhole)
    (a : Vec F S400x10000 .f32) (x : Vec F S10000x128 .f32) (xr : Vec F S400x128 .f32) (ws wn : Vec F S128x128 .f32) (K : PUnit → sProp 𝕄) :
    iprop(owns (c : Thread nD τ) arg1 fullShare a ∗ owns (c : Thread nD τ) arg2 fullShare x ∗ owns (c : Thread nD τ) arg3 fullShare xr
        ∗ owns (c : Thread nD τ) arg4 fullShare ws ∗ owns (c : Thread nD τ) arg5 fullShare wn ∗ (∃ d, owns (c : Thread nD τ) arg6 fullShare d)
        ∗ (iprop(owns (c : Thread nD τ) arg1 fullShare a ∗ owns (c : Thread nD τ) arg2 fullShare x ∗ owns (c : Thread nD τ) arg3 fullShare xr
            ∗ owns (c : Thread nD τ) arg4 fullShare ws ∗ owns (c : Thread nD τ) arg5 fullShare wn
            ∗ owns (c : Thread nD τ) arg6 fullShare (outRows a x xr ws wn)) -∗ K ⟨⟩))
      ⊢ wp frame (wpE (defs₀ (F := F)) Variants.none c none) E (cc0__fused_body i arg1 harg1 arg2 harg2 arg3 harg3 arg4 harg4 arg5 harg5 arg6 harg6) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_rows _)

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold the windows' blocks, so `body_run` applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact body_at m c t

end Cert.Kernel.Hand

end
-- ==== Proof.KernelLaunch.lean ====
/-
  The run of the whole program, at any float instance: the region's launch when two windows read one array.

  The program is one kernel region over five distinct arrays: the adjacency matrix, the feature matrix, the two weight
  matrices and the result. The feature matrix is staged by TWO input windows (all of it, and a block of its rows), so the
  pipeline cannot hold each window's array at the full share. At the region's entry the five buffers, each whole at
  the full share, are dealt to the six windows: the feature matrix's full share is cut into its left and right halves,
  one for each of its windows — a read needs any share, and neither window writes —, and every other array goes to its
  one window whole. The region invariant is the core's scoped buffers that are no staging buffer; there is no other
  unscoped buffer. The run ends with every window's array at what the pipeline's write-backs leave there: an input
  array as at entry, the result array the entry contents overwritten block by block.
-/
import proofs.«163232_g29996051595531_retrytranche2_1041_4_alg».proof.Proof.KernelBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The six windows stand on five buffers. -/
theorem arrs_listed : Finset.univ.image (Pipeline.arrRef spec0) = [main_arg1, main_arg0, main_arg2, main_arg3, main_v0].toFinset := by
  decide

/-- The windows' arrays are whole buffers, so the pipeline holds each window's array as its buffer at the window's share. -/
theorem arrays_open (c : Dev nD) (Fn : (w : Fin cfg0.W) → Buf (Elt F) ((cfg0.win w).arr.view.loc (c.tc : Thread nD τ))) :
    ((dats m 0 c).arrays Fn : sProp 𝕄)
      = bigSep Finset.univ fun w : Fin cfg0.W => (((c.tc : Thread nD τ).loc (Pipeline.arrRef spec0 w)) ↦{(dats m 0 c).share w} Fn w : sProp 𝕄) := by
  unfold Dat.arrays
  exact bigSep_congr fun w _ => by rw [(arr_whole0 w).set_eq_univ]

/-- The buffers behind the windows, one by one. -/
theorem arrBufs_open (c : Dev nD) :
    (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_arg3) ↦{fullShare} V m c main_arg3)
          ∗ (((c.tc : Thread nD τ).loc main_v0) ↦{fullShare} V m c main_v0)) :=
  bigSep_eq_bigSepL_of_eq [main_arg1, main_arg0, main_arg2, main_arg3, main_v0] arrs_listed (by decide) _

/-- The five buffers behind the windows, each whole at the full share at the entry contents, are the pipeline's arrays
    at entry: the feature matrix's share cut in halves for its two windows. -/
theorem deal (c : Dev nD) :
    (Pipeline.arrBufs spec0 c (V m c) : sProp 𝕄) ⊢ (dats m 0 c).arrays ((dats m 0 c).arrAt · 0) := by
  rw [arrays_open, arrBufs_open, bigSep_W0]
  iintro ⟨Hadj, Hfeat, Hws, Hwn, Hout⟩
  ihave Hf := (pointsTo_share (PosShare.mem_left_op_right fullShare)).1 $$ Hfeat
  icases Hf with ⟨Hl, Hr⟩
  isplitl [Hadj]; · iexact Hadj
  isplitl [Hl]; · iexact Hl
  isplitl [Hr]; · iexact Hr
  isplitl [Hws]; · iexact Hws
  isplitl [Hwn]; · iexact Hwn
  iexact Hout

/-! ## The run -/

/-- The region invariant at every point: the scoped buffers that are no staging buffer. -/
theorem inv_eq (c : Dev nD) (t : Fin (cfg0.N + 1)) : (dats m 0 c).Φ t = (Pipeline.scopedRest spec0 c : sProp 𝕄) := by
  dsimp only [dats]

/-- @main is the region alone, entered at the launch memory. -/
theorem hmain : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- From any memory with zero counters every weakly fair execution of @main terminates, nothing faulting, with every
    window's array at what the write-backs of all 25 points leave there. -/
theorem run_main : θ_run defs (onTc (τ := τ) (main (F := F))) ⟨m, fun _ => 0, ρ⟩
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m)
    (hsplit := deal m)
    (X := fun _ => iprop(emp)) (Y := fun _ => iprop(emp)) (Z := fun _ => iprop(emp))
    (hX := fun c => by
      rw [unscopedRest0_eq]
      iintro -; isplitl <;> iempintro)
    (hin := fun c => by
      rw [inv_eq]
      iintro ⟨-, H⟩; iexact H)
    (hout := fun c => by
      rw [inv_eq]
      iintro H; isplitr; · iempintro
      iexact H)
    (QY := fun _ _ => True)
    (hY := fun c s' => by
      iintro ⟨-, -, HSI⟩; imodintro
      isplitr; · ipureintro; trivial
      iexact HSI)
    (hQ := fun s h c w => (h c).1 w)

end Cert.Kernel.Hand

end
-- ==== Proof.KernelFrame.lean ====
/-
  The frame, and the run with the result array named, at any float instance.

  After the run every window's array holds what the write-backs leave there. An input window is never written back, so
  its array ends at its entry contents, the launch memory: the feature matrix (windows 1 and 2), the adjacency matrix
  (window 0) and the two weight matrices (windows 3 and 4) end unchanged — the frame. The result array (window 5) ends
  at the entry contents overwritten by the 25 blocks the body left, which the value side reads.
-/
import proofs.«163232_g29996051595531_retrytranche2_1041_4_alg».proof.Proof.KernelLaunch

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- An input window's array after all the points is the launch memory's. -/
theorem kept_feat (c : Dev nD) : (dats m 0 c).arrAt 1 cfg0.N = m ((c.tc : Thread nD τ).loc main_arg0) :=
  ((dats m 0 c).arrAt_in 1 rfl _).trans (A_eq m c 1)
theorem kept_adj (c : Dev nD) : (dats m 0 c).arrAt 0 cfg0.N = m ((c.tc : Thread nD τ).loc main_arg1) :=
  ((dats m 0 c).arrAt_in 0 rfl _).trans (A_eq m c 0)
theorem kept_ws (c : Dev nD) : (dats m 0 c).arrAt 3 cfg0.N = m ((c.tc : Thread nD τ).loc main_arg2) :=
  ((dats m 0 c).arrAt_in 3 rfl _).trans (A_eq m c 3)
theorem kept_wn (c : Dev nD) : (dats m 0 c).arrAt 4 cfg0.N = m ((c.tc : Thread nD τ).loc main_arg3) :=
  ((dats m 0 c).arrAt_in 4 rfl _).trans (A_eq m c 4)

/-- The run with the result array named and the four arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c 5, (h c 1).trans (kept_feat m c), (h c 0).trans (kept_adj m c),
      (h c 3).trans (kept_ws m c), (h c 4).trans (kept_wn m c)⟩) (run_main m ρ)

/-- THE FRAME: every weakly fair execution terminates, nothing faults, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_named m ρ)

end Cert.Kernel.Hand

end
-- ==== Proof.KernelIdealData.lean ====
/-
  The proof data of the fused kernel's one pipeline, at any float instance.

  The kernel walks the 25 row blocks of the adjacency matrix. At grid point `t` it is handed six staging buffers:
  rows `400 t … 400 t + 399` of the adjacency matrix (window 0), the whole feature matrix (window 1), rows
  `400 t … 400 t + 399` of the feature matrix (window 2), the two weight matrices (windows 3 and 4) and the output
  block (window 5). Windows 1 and 2 are two views of ONE array, the feature matrix, both read-only. The body reads the
  five input buffers, leaves them as it found them, and stores into the output buffer one value, the payload of the
  five blocks. Stated here: each window's block at a point as read off the entry arrays, what each input buffer holds
  when the body runs (its block, fetched at this point or kept from an earlier one), what the output buffer holds after
  the body, and the pipeline's proof data over these. The feature matrix's full share is dealt in halves to its two
  windows; every other input array is held at the full share.
-/
import proofs.«163232_g29996051595531_retrytranche2_1041_4_alg».proof.Proof.Gen.KernelIdeal.Launch
import proofs.«163232_g29996051595531_retrytranche2_1041_4_alg».proof.Proof.Gen.KernelIdeal.Skeleton
import proofs.«163232_g29996051595531_retrytranche2_1041_4_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## The arrays at the region's entry, and each window's block -/

/-- Core `c`'s buffers when the region is entered: the launch memory (the program is the region alone). -/
abbrev V (c : Dev nD) (b : Ref sig .tc) : Buf (Elt F) ((c : Thread nD τ).loc b) := m ((c : Thread nD τ).loc b)

/-- Window `w`'s block at grid point `t`, read off its array's entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block whenever the body runs — fetched at this point, or
    kept from the last fetch while the block index has not moved — for any proof data over the entry arrays whose
    body leaves the block in place. One statement per input window; the windows are uncut and never idle. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole-buffer rectangles the body loads and stores through. -/
abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0
abbrev rRows : Rect S400x128 := Rect.unit (s := S400x128) ![0, 0] S400x128.size inb_S400x128_S400x128_0_0

/-- The output buffer after the body, from the five input blocks: its one whole-buffer store, the payload of the
    adjacency rows `a`, the feature matrix `x`, the feature rows `xr`, the self weight `ws` and the neighbour weight `wn`. -/
def outRows (a : Vec F S400x10000 .f32) (x : Vec F S10000x128 .f32) (xr : Vec F S400x128 .f32) (ws wn : Vec F S128x128 .f32) : Vec F S400x128 .f32 :=
  View.canon [⟨rRows, k0_pay1 (View.ld a rAdj) (View.ld x rFeat) (View.ld wn rW) (View.ld xr rRows) (View.ld ws rW)⟩]

/-- The one store covers the buffer. -/
theorem cover_rows (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## The proof data -/

/-- The pipeline's proof data on core `c`: the entry arrays; after the body each input buffer at its block and the
    output buffer at `outRows` of the blocks; the region invariant the core's scoped buffers that are no staging
    buffer (the body touches none); nothing owed. The feature matrix is held in halves by its two windows, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRows (iblk m c 0 t) (iblk m c 1 t) (iblk m c 2 t) (iblk m c 3 t) (iblk m c 4 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outRows (iblk m c 0 t) (iblk m c 1 t) (iblk m c 2 t) (iblk m c 3 t) (iblk m c 4 t) := by dsimp only [dats]

theorem found_0 (c : Dev nD) (t : Fin cfg0.N) (d) : (dats m 0 c).before 0 t d = iblk m c 0 t :=
  found0_of m (dats m 0 c) (A_eq m c 0) (after_0 m c) t d
theorem found_1 (c : Dev nD) (t : Fin cfg0.N) (d) : (dats m 0 c).before 1 t d = iblk m c 1 t :=
  found1_of m (dats m 0 c) (A_eq m c 1) (after_1 m c) t d
theorem found_2 (c : Dev nD) (t : Fin cfg0.N) (d) : (dats m 0 c).before 2 t d = iblk m c 2 t :=
  found2_of m (dats m 0 c) (A_eq m c 2) (after_2 m c) t d
theorem found_3 (c : Dev nD) (t : Fin cfg0.N) (d) : (dats m 0 c).before 3 t d = iblk m c 3 t :=
  found3_of m (dats m 0 c) (A_eq m c 3) (after_3 m c) t d
theorem found_4 (c : Dev nD) (t : Fin cfg0.N) (d) : (dats m 0 c).before 4 t d = iblk m c 4 t :=
  found4_of m (dats m 0 c) (A_eq m c 4) (after_4 m c) t d

/-- The shares the arrays are held at: the feature matrix in halves, the rest whole. -/
theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

end Cert.KernelIdeal.Hand

end
-- ==== Proof.KernelIdealBody.lean ====
/-
  The kernel body at a grid point, at any float instance.

  On six whole staging buffers — the five inputs at read contents, the output at anything — the body loads the five
  inputs, reads the output buffer once (a value it never uses), and stores the payload of the five loads over the whole
  output buffer. So it returns the inputs as it found them and the output buffer at `outRows` of them. At grid point
  `t` the inputs hold the windows' blocks, so the pipeline's obligation for the body holds at every point: the region
  invariant and what the core owes pass through unread.
-/
import proofs.«163232_g29996051595531_retrytranche2_1041_4_alg».proof.Proof.KernelIdealData
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's triple -/

set_option maxHeartbeats 1000000 in
/-- The body on whole staging memrefs: the inputs at `a`, `x`, `xr`, `ws`, `wn` and the output at anything run to the
    continuation holding the inputs unchanged and the output at `outRows a x xr ws wn`. -/
theorem body_run (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S400x128 .f32) (harg6 : arg6.IsWhole)
    (a : Vec F S400x10000 .f32) (x : Vec F S10000x128 .f32) (xr : Vec F S400x128 .f32) (ws wn : Vec F S128x128 .f32) (K : PUnit → sProp 𝕄) :
    iprop(owns (c : Thread nD τ) arg1 fullShare a ∗ owns (c : Thread nD τ) arg2 fullShare x ∗ owns (c : Thread nD τ) arg3 fullShare xr
        ∗ owns (c : Thread nD τ) arg4 fullShare ws ∗ owns (c : Thread nD τ) arg5 fullShare wn ∗ (∃ d, owns (c : Thread nD τ) arg6 fullShare d)
        ∗ (iprop(owns (c : Thread nD τ) arg1 fullShare a ∗ owns (c : Thread nD τ) arg2 fullShare x ∗ owns (c : Thread nD τ) arg3 fullShare xr
            ∗ owns (c : Thread nD τ) arg4 fullShare ws ∗ owns (c : Thread nD τ) arg5 fullShare wn
            ∗ owns (c : Thread nD τ) arg6 fullShare (outRows a x xr ws wn)) -∗ K ⟨⟩))
      ⊢ wp frame (wpE (defs₀ (F := F)) Variants.none c none) E (cc0__fused_body i arg1 harg1 arg2 harg2 arg3 harg3 arg4 harg4 arg5 harg5 arg6 harg6) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_rows _)

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold the windows' blocks, so `body_run` applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact body_at m c t

end Cert.KernelIdeal.Hand

end
-- ==== Proof.KernelIdealLaunch.lean ====
/-
  The run of the whole program, at any float instance: the region's launch when two windows read one array.

  The program is one kernel region over five distinct arrays: the adjacency matrix, the feature matrix, the two weight
  matrices and the result. The feature matrix is staged by TWO input windows (all of it, and a block of its rows), so the
  pipeline cannot hold each window's array at the full share. At the region's entry the five buffers, each whole at
  the full share, are dealt to the six windows: the feature matrix's full share is cut into its left and right halves,
  one for each of its windows — a read needs any share, and neither window writes —, and every other array goes to its
  one window whole. The region invariant is the core's scoped buffers that are no staging buffer; there is no other
  unscoped buffer. The run ends with every window's array at what the pipeline's write-backs leave there: an input
  array as at entry, the result array the entry contents overwritten block by block.
-/
import proofs.«163232_g29996051595531_retrytranche2_1041_4_alg».proof.Proof.KernelIdealBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The six windows stand on five buffers. -/
theorem arrs_listed : Finset.univ.image (Pipeline.arrRef spec0) = [main_arg1, main_arg0, main_arg2, main_arg3, main_v0].toFinset := by
  decide

/-- The windows' arrays are whole buffers, so the pipeline holds each window's array as its buffer at the window's share. -/
theorem arrays_open (c : Dev nD) (Fn : (w : Fin cfg0.W) → Buf (Elt F) ((cfg0.win w).arr.view.loc (c.tc : Thread nD τ))) :
    ((dats m 0 c).arrays Fn : sProp 𝕄)
      = bigSep Finset.univ fun w : Fin cfg0.W => (((c.tc : Thread nD τ).loc (Pipeline.arrRef spec0 w)) ↦{(dats m 0 c).share w} Fn w : sProp 𝕄) := by
  unfold Dat.arrays
  exact bigSep_congr fun w _ => by rw [(arr_whole0 w).set_eq_univ]

/-- The buffers behind the windows, one by one. -/
theorem arrBufs_open (c : Dev nD) :
    (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_arg3) ↦{fullShare} V m c main_arg3)
          ∗ (((c.tc : Thread nD τ).loc main_v0) ↦{fullShare} V m c main_v0)) :=
  bigSep_eq_bigSepL_of_eq [main_arg1, main_arg0, main_arg2, main_arg3, main_v0] arrs_listed (by decide) _

/-- The five buffers behind the windows, each whole at the full share at the entry contents, are the pipeline's arrays
    at entry: the feature matrix's share cut in halves for its two windows. -/
theorem deal (c : Dev nD) :
    (Pipeline.arrBufs spec0 c (V m c) : sProp 𝕄) ⊢ (dats m 0 c).arrays ((dats m 0 c).arrAt · 0) := by
  rw [arrays_open, arrBufs_open, bigSep_W0]
  iintro ⟨Hadj, Hfeat, Hws, Hwn, Hout⟩
  ihave Hf := (pointsTo_share (PosShare.mem_left_op_right fullShare)).1 $$ Hfeat
  icases Hf with ⟨Hl, Hr⟩
  isplitl [Hadj]; · iexact Hadj
  isplitl [Hl]; · iexact Hl
  isplitl [Hr]; · iexact Hr
  isplitl [Hws]; · iexact Hws
  isplitl [Hwn]; · iexact Hwn
  iexact Hout

/-! ## The run -/

/-- The region invariant at every point: the scoped buffers that are no staging buffer. -/
theorem inv_eq (c : Dev nD) (t : Fin (cfg0.N + 1)) : (dats m 0 c).Φ t = (Pipeline.scopedRest spec0 c : sProp 𝕄) := by
  dsimp only [dats]

/-- @main is the region alone, entered at the launch memory. -/
theorem hmain : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- From any memory with zero counters every weakly fair execution of @main terminates, nothing faulting, with every
    window's array at what the write-backs of all 25 points leave there. -/
theorem run_main : θ_run defs (onTc (τ := τ) (main (F := F))) ⟨m, fun _ => 0, ρ⟩
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m)
    (hsplit := deal m)
    (X := fun _ => iprop(emp)) (Y := fun _ => iprop(emp)) (Z := fun _ => iprop(emp))
    (hX := fun c => by
      rw [unscopedRest0_eq]
      iintro -; isplitl <;> iempintro)
    (hin := fun c => by
      rw [inv_eq]
      iintro ⟨-, H⟩; iexact H)
    (hout := fun c => by
      rw [inv_eq]
      iintro H; isplitr; · iempintro
      iexact H)
    (QY := fun _ _ => True)
    (hY := fun c s' => by
      iintro ⟨-, -, HSI⟩; imodintro
      isplitr; · ipureintro; trivial
      iexact HSI)
    (hQ := fun s h c w => (h c).1 w)

end Cert.KernelIdeal.Hand

end
-- ==== Proof.KernelIdealFrame.lean ====
/-
  The frame, and the run with the result array named, at any float instance.

  After the run every window's array holds what the write-backs leave there. An input window is never written back, so
  its array ends at its entry contents, the launch memory: the feature matrix (windows 1 and 2), the adjacency matrix
  (window 0) and the two weight matrices (windows 3 and 4) end unchanged — the frame. The result array (window 5) ends
  at the entry contents overwritten by the 25 blocks the body left, which the value side reads.
-/
import proofs.«163232_g29996051595531_retrytranche2_1041_4_alg».proof.Proof.KernelIdealLaunch

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- An input window's array after all the points is the launch memory's. -/
theorem kept_feat (c : Dev nD) : (dats m 0 c).arrAt 1 cfg0.N = m ((c.tc : Thread nD τ).loc main_arg0) :=
  ((dats m 0 c).arrAt_in 1 rfl _).trans (A_eq m c 1)
theorem kept_adj (c : Dev nD) : (dats m 0 c).arrAt 0 cfg0.N = m ((c.tc : Thread nD τ).loc main_arg1) :=
  ((dats m 0 c).arrAt_in 0 rfl _).trans (A_eq m c 0)
theorem kept_ws (c : Dev nD) : (dats m 0 c).arrAt 3 cfg0.N = m ((c.tc : Thread nD τ).loc main_arg2) :=
  ((dats m 0 c).arrAt_in 3 rfl _).trans (A_eq m c 3)
theorem kept_wn (c : Dev nD) : (dats m 0 c).arrAt 4 cfg0.N = m ((c.tc : Thread nD τ).loc main_arg3) :=
  ((dats m 0 c).arrAt_in 4 rfl _).trans (A_eq m c 4)

/-- The run with the result array named and the four arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c 5, (h c 1).trans (kept_feat m c), (h c 0).trans (kept_adj m c),
      (h c 3).trans (kept_ws m c), (h c 4).trans (kept_wn m c)⟩) (run_main m ρ)

/-- THE FRAME: every weakly fair execution terminates, nothing faults, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_named m ρ)

end Cert.KernelIdeal.Hand

end
-- ==== Proof.SpecLayer.lean ====
/-
  The specification: one graph-convolution layer with a self term, as a function of its four argument arrays.

  For a feature matrix `feat` (10000 × 128), an adjacency matrix `adj` (10000 × 10000) and two weight matrices
  `ws`, `wn` (128 × 128), the result's entry `(r, q)` is

      max ( ∑ l, (∑ k, adj[r,k] · feat[k,l]) · wn[l,q]  +  ∑ l, feat[r,l] · ws[l,q] ,  0 )

  over the extended reals: the neighbours' features gathered through the adjacency matrix and mapped by `wn`, plus the
  row's own features mapped by `ws`, clamped below at zero. No program is imported here.
-/
import Idealize.ShloMosaic.Lib.ValueIdx
import Idealize.ShloMosaic.PureOps.Ideal.Laws

noncomputable section

namespace Cert.Spec

open Idealize.ShloMosaic Idealize.ShloMosaic.ValueIdx

/-- The neighbour term at `(r, q)`: the adjacency row times the features, then times the neighbour weight. -/
def neigh (feat : FVec Ideal ⟨2, ![10000, 128]⟩ .f32) (adj : FVec Ideal ⟨2, ![10000, 10000]⟩ .f32)
    (wn : FVec Ideal ⟨2, ![128, 128]⟩ .f32) (r : Fin 10000) (q : Fin 128) : EReal :=
  ∑ l : Fin 128, (∑ k : Fin 10000, adj (ix2 r k) * feat (ix2 k l)) * wn (ix2 l q)

/-- The self term at `(r, q)`: the row's own features times the self weight. -/
def self (feat : FVec Ideal ⟨2, ![10000, 128]⟩ .f32) (ws : FVec Ideal ⟨2, ![128, 128]⟩ .f32)
    (r : Fin 10000) (q : Fin 128) : EReal :=
  ∑ l : Fin 128, feat (ix2 r l) * ws (ix2 l q)

/-- The layer's result: at `(r, q)` the neighbour term plus the self term, clamped below at zero. -/
def G (feat : FVec Ideal ⟨2, ![10000, 128]⟩ .f32) (adj : FVec Ideal ⟨2, ![10000, 10000]⟩ .f32)
    (ws wn : FVec Ideal ⟨2, ![128, 128]⟩ .f32) : FVec Ideal ⟨2, ![10000, 128]⟩ .f32 :=
  fun i => max (neigh feat adj wn (i 0) (i 1) + self feat ws (i 0) (i 1)) 0

/-- The result read at the entry built from its two coordinates. -/
theorem G_ix2 (feat : FVec Ideal ⟨2, ![10000, 128]⟩ .f32) (adj : FVec Ideal ⟨2, ![10000, 10000]⟩ .f32)
    (ws wn : FVec Ideal ⟨2, ![128, 128]⟩ .f32) (r : Fin 10000) (q : Fin 128) :
    G feat adj ws wn (ix2 r q) = max (neigh feat adj wn r q + self feat ws r q) 0 := rfl

end Cert.Spec

end
-- ==== Proof.RefValue.lean ====
/-
  The reference computes the specified layer.

  The reference forms `feat · ws`, then `(adj · feat) · wn`, adds them in that order and clamps at zero; the
  specification adds the neighbour term first. Read at an entry the two differ by commuting one sum of two
  extended reals.
-/
import proofs.«163232_g29996051595531_retrytranche2_1041_4_alg».proof.Proof.Gen.ReferenceIdeal.Read
import proofs.«163232_g29996051595531_retrytranche2_1041_4_alg».proof.Proof.SpecLayer

noncomputable section

namespace Cert.ReferenceIdeal.RefValue

open Cert.ReferenceIdeal Cert.ReferenceIdeal.Read Idealize.ShloMosaic Idealize.ShloMosaic.ValueIdx

/-- The index functions of the reference's three products, at an entry built from its coordinates. -/
theorem lidx0_ix2 (r : Fin 10000) (l : Fin 128) (k : Fin 10000) : lidx_main_v0 (ix2 r l) k = ix2 r k :=
  funext fun a => Fin.ext (by match a with | ⟨0, _⟩ => rfl | ⟨1, _⟩ => rfl)
theorem ridx0_ix2 (r : Fin 10000) (l : Fin 128) (k : Fin 10000) : ridx_main_v0 (ix2 r l) k = ix2 k l :=
  funext fun a => Fin.ext (by match a with | ⟨0, _⟩ => rfl | ⟨1, _⟩ => rfl)
theorem lidx1_ix2 (r : Fin 10000) (q : Fin 128) (l : Fin 128) : lidx_main_v1 (ix2 r q) l = ix2 r l :=
  funext fun a => Fin.ext (by match a with | ⟨0, _⟩ => rfl | ⟨1, _⟩ => rfl)
theorem ridx1_ix2 (r : Fin 10000) (q : Fin 128) (l : Fin 128) : ridx_main_v1 (ix2 r q) l = ix2 l q :=
  funext fun a => Fin.ext (by match a with | ⟨0, _⟩ => rfl | ⟨1, _⟩ => rfl)
theorem lidx2_ix2 (r : Fin 10000) (q : Fin 128) (l : Fin 128) : lidx_main_v2 (ix2 r q) l = ix2 r l :=
  funext fun a => Fin.ext (by match a with | ⟨0, _⟩ => rfl | ⟨1, _⟩ => rfl)
theorem ridx2_ix2 (r : Fin 10000) (q : Fin 128) (l : Fin 128) : ridx_main_v2 (ix2 r q) l = ix2 l q :=
  funext fun a => Fin.ext (by match a with | ⟨0, _⟩ => rfl | ⟨1, _⟩ => rfl)

/-- The reference's result is the specified layer of its four arguments. -/
theorem ref_eq (x0 : (⟨S10000x128, .f32⟩ : BufTy).Contents (Elt Ideal)) (x1 : (⟨S10000x10000, .f32⟩ : BufTy).Contents (Elt Ideal))
    (x2 x3 : (⟨S128x128, .f32⟩ : BufTy).Contents (Elt Ideal)) :
    val_main_v4 (F := Ideal) x0 x1 x2 x3 = Cert.Spec.G x0 x1 x2 x3 := by
  funext i
  obtain ⟨r, q, rfl⟩ : ∃ (r : Fin 10000) (q : Fin 128), i = ix2 r q := ⟨i 0, i 1, eq_ix2 i⟩
  rw [Cert.Spec.G_ix2, val_main_v4_apply, val_main_v3_apply, val_main_v1_apply, val_main_v2_apply,
    val_main_call0_v0_apply, val_main_call0_cst_apply]
  simp only [val_main_v0_apply, lidx0_ix2, ridx0_ix2, lidx1_ix2, ridx1_ix2, lidx2_ix2, ridx2_ix2,
    Ideal.maximumf_def, Ideal.addf_def, Ideal.ofBits_def, Ideal.ofBits_zero_f32]
  rw [add_comm]
  rfl

end Cert.ReferenceIdeal.RefValue

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.ValuePayload.lean ====
/-
  The body's arithmetic at an entry.

  The body forms `(a · x) · wn + xr · ws` from its five loaded blocks (the adjacency rows `a`, the feature matrix
  `x`, the neighbour weight `wn`, the feature rows `xr`, the self weight `ws`) and clamps it at zero. Over the
  extended reals the two narrowing conversions are the identity and each product into the zero accumulator is the
  plain sum over its contraction index, so entry `(p, q)` is a maximum of a sum of two sums with zero. When the
  blocks are rows `400 t + p` of the adjacency and feature matrices and the whole of the other arrays, that entry
  is the specified layer at row `400 t + p`.
-/
import proofs.«163232_g29996051595531_retrytranche2_1041_4_alg».proof.Proof.Gen.KernelIdeal.Skeleton
import proofs.«163232_g29996051595531_retrytranche2_1041_4_alg».proof.Proof.LibPlainDot
import proofs.«163232_g29996051595531_retrytranche2_1041_4_alg».proof.Proof.SpecLayer
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.ValueIdx

/-- The two products' dimension numbers are the plain ones: contract the left operand's columns with the right
    operand's rows. -/
theorem dotAdj_plain : dot_S400x10000_S10000x128_S400x128_1_0_0_1_n_n = DotDims.plain 400 10000 128 := rfl
theorem dotW_plain : dot_S400x128_S128x128_S400x128_1_0_0_1_n_n = DotDims.plain 400 128 128 := rfl

/-- The body's value at entry `(p, q)` of its output block. -/
theorem pay_apply (a : FVec Ideal S400x10000 .f32) (x : FVec Ideal S10000x128 .f32) (wn : FVec Ideal S128x128 .f32)
    (xr : FVec Ideal S400x128 .f32) (ws : FVec Ideal S128x128 .f32) (p : Fin 400) (q : Fin 128) :
    k0_pay1 (F := Ideal) a x wn xr ws (ix2 p q)
      = max ((∑ l : Fin 128, (∑ k : Fin 10000, a (ix2 p k) * x (ix2 k l)) * wn (ix2 l q))
          + ∑ l : Fin 128, xr (ix2 p l) * ws (ix2 l q)) 0 := by
  unfold k0_pay1
  rw [dotAdj_plain, dotW_plain]
  simp only [maximumf_apply, addf_apply, broadcast_apply, Cert.Lib.PlainDot.matmul_zero_apply, truncf_apply]
  show max _ (Ideal.ofBits .f32 0x00000000#32) = _
  rw [Ideal.ofBits_zero_f32]

/-- When the adjacency block's row `p` is row `r` of the adjacency matrix, the feature rows' row `p` is row `r` of
    the feature matrix, and the other three blocks are the whole feature matrix and the two weights, the body's
    value at `(p, q)` is the specified layer at `(r, q)`. -/
theorem pay_eq_G (feat : FVec Ideal ⟨2, ![10000, 128]⟩ .f32) (adj : FVec Ideal ⟨2, ![10000, 10000]⟩ .f32)
    (ws wn : FVec Ideal ⟨2, ![128, 128]⟩ .f32)
    (a : FVec Ideal S400x10000 .f32) (x : FVec Ideal S10000x128 .f32) (wnb : FVec Ideal S128x128 .f32)
    (xr : FVec Ideal S400x128 .f32) (wsb : FVec Ideal S128x128 .f32) (p : Fin 400) (q : Fin 128) (r : Fin 10000)
    (ha : ∀ k : Fin 10000, a (ix2 p k) = adj (ix2 r k))
    (hx : ∀ (k : Fin 10000) (l : Fin 128), x (ix2 k l) = feat (ix2 k l))
    (hwn : ∀ l q' : Fin 128, wnb (ix2 l q') = wn (ix2 l q'))
    (hxr : ∀ l : Fin 128, xr (ix2 p l) = feat (ix2 r l))
    (hws : ∀ l q' : Fin 128, wsb (ix2 l q') = ws (ix2 l q')) :
    k0_pay1 (F := Ideal) a x wnb xr wsb (ix2 p q) = Cert.Spec.G feat adj ws wn (ix2 r q) := by
  rw [pay_apply, Cert.Spec.G_ix2]
  unfold Cert.Spec.neigh Cert.Spec.self
  simp only [ha, hx, hwn, hxr, hws]

end Cert.KernelIdeal.HandValue

end
-- ==== Proof.ValueBlocks.lean ====
/-
  The six windows' blocks as rows of the entry arrays, and the output blocks' cover.

  At grid point `t` the adjacency window's block is rows `400 t … 400 t + 399` of the adjacency matrix, the feature
  rows' window's block the same rows of the feature matrix, and the other three input windows' blocks are their whole
  arrays. The output window's block at `t` is rows `400 t … 400 t + 399` of the result; row `r` lies in the
  block of point `r / 400`, so the 25 blocks cover the result.
-/
import proofs.«163232_g29996051595531_retrytranche2_1041_4_alg».proof.Proof.KernelIdealData
import proofs.«163232_g29996051595531_retrytranche2_1041_4_alg».proof.Proof.Gen.KernelIdeal.Points
import proofs.«163232_g29996051595531_retrytranche2_1041_4_alg».proof.Proof.Gen.KernelIdeal.Launch
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The block indices of the six windows at every grid point: the two row windows and the output move with the
    point, the other three stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s row block, as a row of the whole array. -/
def row (t : Fin cfg0.N) (p : Fin 400) : Fin 10000 :=
  ⟨400 * t.val + p.val, by have ht : t.val < 25 := Nat.lt_of_lt_of_eq t.isLt N_0; have hp := p.isLt; omega⟩

theorem row_val (t : Fin cfg0.N) (p : Fin 400) : (row t p).val = 400 * t.val + p.val := rfl

/-- The adjacency window's block at `t`: rows `400 t + p` of the adjacency matrix. -/
theorem iblk0_apply (c : Dev nD) (t : Fin cfg0.N) (p : Fin 400) (k : Fin 10000) :
    (iblk m c 0 t : Vec Ideal S400x10000 .f32) (ix2 p k)
      = (m ((c : Thread nD τ).loc main_arg1) : S10000x10000.Idx → Elt Ideal .f32) (ix2 (row t p) k) := by
  obtain ⟨e0, e1, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_0.index t (0 : Fin 2) * 400 + 1 * p.val = 400 * t.val + p.val; rw [e0]; omega
  | ⟨1, _⟩ => show win0_0.index t (1 : Fin 2) * 10000 + 1 * k.val = k.val; rw [e1]; omega

/-- The feature window's block at `t`: the whole feature matrix. -/
theorem iblk1_apply (c : Dev nD) (t : Fin cfg0.N) (k : Fin 10000) (l : Fin 128) :
    (iblk m c 1 t : Vec Ideal S10000x128 .f32) (ix2 k l)
      = (m ((c : Thread nD τ).loc main_arg0) : S10000x128.Idx → Elt Ideal .f32) (ix2 k l) := by
  obtain ⟨-, -, e0, e1, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_1.index t (0 : Fin 2) * 10000 + 1 * k.val = k.val; rw [e0]; omega
  | ⟨1, _⟩ => show win0_1.index t (1 : Fin 2) * 128 + 1 * l.val = l.val; rw [e1]; omega

/-- The feature rows' window's block at `t`: rows `400 t + p` of the feature matrix. -/
theorem iblk2_apply (c : Dev nD) (t : Fin cfg0.N) (p : Fin 400) (l : Fin 128) :
    (iblk m c 2 t : Vec Ideal S400x128 .f32) (ix2 p l)
      = (m ((c : Thread nD τ).loc main_arg0) : S10000x128.Idx → Elt Ideal .f32) (ix2 (row t p) l) := by
  obtain ⟨-, -, -, -, e0, e1, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_2.index t (0 : Fin 2) * 400 + 1 * p.val = 400 * t.val + p.val; rw [e0]; omega
  | ⟨1, _⟩ => show win0_2.index t (1 : Fin 2) * 128 + 1 * l.val = l.val; rw [e1]; omega

/-- The self weight's window's block at `t`: the whole self weight. -/
theorem iblk3_apply (c : Dev nD) (t : Fin cfg0.N) (l q : Fin 128) :
    (iblk m c 3 t : Vec Ideal S128x128 .f32) (ix2 l q)
      = (m ((c : Thread nD τ).loc main_arg2) : S128x128.Idx → Elt Ideal .f32) (ix2 l q) := by
  obtain ⟨-, -, -, -, -, -, e0, e1, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_3.index t (0 : Fin 2) * 128 + 1 * l.val = l.val; rw [e0]; omega
  | ⟨1, _⟩ => show win0_3.index t (1 : Fin 2) * 128 + 1 * q.val = q.val; rw [e1]; omega

/-- The neighbour weight's window's block at `t`: the whole neighbour weight. -/
theorem iblk4_apply (c : Dev nD) (t : Fin cfg0.N) (l q : Fin 128) :
    (iblk m c 4 t : Vec Ideal S128x128 .f32) (ix2 l q)
      = (m ((c : Thread nD τ).loc main_arg3) : S128x128.Idx → Elt Ideal .f32) (ix2 l q) := by
  obtain ⟨-, -, -, -, -, -, -, -, e0, e1, -⟩ := idx_facts t
  unfold iblk
  rw [View.read_apply]
  show m ((c : Thread nD τ).loc main_arg3) _ = m ((c : Thread nD τ).loc main_arg3) _
  congr 1
  funext a
  apply Fin.ext
  match a with
  | ⟨0, _⟩ => show win0_4.index t (0 : Fin 2) * 128 + 1 * l.val = l.val; rw [e0]; omega
  | ⟨1, _⟩ => show win0_4.index t (1 : Fin 2) * 128 + 1 * q.val = q.val; rw [e1]; omega

/-- Entry `(p, q)` of the output window's block at `t` sits at `(400 t + p, q)` of the result. -/
theorem out_emb (t : Fin cfg0.N) (p : Fin 400) (q : Fin 128) :
    ((cfg0.win 5).blk t).view.emb (ix2 p q) = (ix2 (row t p) q : S10000x128.Idx) := by
  obtain ⟨-, -, -, -, -, -, -, -, -, -, e0, e1⟩ := idx_facts t
  funext a
  apply Fin.ext
  match a with
  | ⟨0, _⟩ => show win0_5.index t (0 : Fin 2) * 400 + 1 * p.val = 400 * t.val + p.val; rw [e0]; omega
  | ⟨1, _⟩ => show win0_5.index t (1 : Fin 2) * 128 + 1 * q.val = q.val; rw [e1]; omega

/-- An index of the result is in point `t`'s output block iff each coordinate is in the block's range on its axis. -/
theorem mem_blk (t : Fin cfg0.N) (i : S10000x128.Idx) :
    i ∈ ((cfg0.win 5).blk t).view.set
      ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

/-- Every index of the result is in the output block of the point its row falls in. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have ht : (i 0).val / 400 < cfg0.N := by rw [show cfg0.N = 25 from N_0]; omega
  obtain ⟨-, -, -, -, -, -, -, -, -, -, e0, e1⟩ := idx_facts ⟨(i 0).val / 400, ht⟩
  refine ⟨⟨(i 0).val / 400, ht⟩, flush0_5 _, ?_⟩
  rw [mem_blk]
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 2) * 128 ≤ (i 1).val
      ∧ (i 1).val < win0_5.index ⟨(i 0).val / 400, ht⟩ (1 : Fin 2) * 128 + 128
    rw [e1]; omega

end Cert.KernelIdeal.HandValue

end
-- ==== Proof.ValueFinal.lean ====
/-
  The result array after the run is the specified layer of the four argument arrays.

  What point `t` writes back is the body's value on its five blocks; entry `(p, q)` of it is the specified layer at
  row `400 t + p`, which is where that entry of the output block sits in the result. The 25 output blocks cover the
  result, so the array ends holding the layer everywhere.
-/
import proofs.«163232_g29996051595531_retrytranche2_1041_4_alg».proof.Proof.ValuePayload
import proofs.«163232_g29996051595531_retrytranche2_1041_4_alg».proof.Proof.ValueBlocks

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What point `t` writes back is block `t` of the specified layer of the argument arrays. -/
theorem flushed_eq (c : Dev nD) (t : Fin cfg0.N) :
    (dats (F := Ideal) m 0 c).flushed 5 t
      = ((cfg0.win 5).blk t).view.read (Elt Ideal)
          (Cert.Spec.G (m ((c : Thread nD τ).loc main_arg0)) (m ((c : Thread nD τ).loc main_arg1))
            (m ((c : Thread nD τ).loc main_arg2)) (m ((c : Thread nD τ).loc main_arg3))) := by
  show (cfg0.win 5).cut (grid0.coords t) ((dats (F := Ideal) m 0 c).after 5 t) = _
  rw [after_5]
  unfold outRows
  rw [View.canon_unit_zero hz]
  simp only [View.ld_unit_zero (S := S400x10000) hz, View.ld_unit_zero (S := S10000x128) hz,
    View.ld_unit_zero (S := S128x128) hz, View.ld_unit_zero (S := S400x128) hz]
  refine funext fun (j : S400x128.Idx) => ?_
  obtain ⟨p, q, rfl⟩ : ∃ (p : Fin 400) (q : Fin 128), j = ix2 p q := ⟨j 0, j 1, eq_ix2 j⟩
  rw [View.read_apply, out_emb]
  exact pay_eq_G _ _ _ _ _ _ _ _ _ p q (row t p)
    (fun k => iblk0_apply m c t p k) (fun k l => iblk1_apply m c t k l) (fun l q' => iblk4_apply m c t l q')
    (fun l => iblk2_apply m c t p l) (fun l q' => iblk3_apply m c t l q')

/-- The result array after the run: the specified layer of the four argument arrays. -/
theorem final (m : (ℓ : Loc nD τ sig) → Buf (Elt Ideal) ℓ) (c : Dev nD) :
    (dats (F := Ideal) m 0 c).arrAt 5 cfg0.N
      = Cert.Spec.G (m ((c : Thread nD τ).loc main_arg0)) (m ((c : Thread nD τ).loc main_arg1))
          (m ((c : Thread nD τ).loc main_arg2)) (m ((c : Thread nD τ).loc main_arg3)) :=
  (dats (F := Ideal) m 0 c).arrAt_eq_of_cover 5 _ (fun t _ => flushed_eq m c t) cover

end Cert.KernelIdeal.HandValue

end
-- ==== Proof.lean ====
/-
  The certificate's claim: a fused graph-convolution layer against its reference.

  The kernel computes, 400 rows at a time, `max((adj · feat) · weight_neigh + feat · weight_self, 0)`: a grid of 25 points,
  each reading a block of 400 rows of the adjacency matrix, the whole feature matrix, the matching 400 rows of the
  feature matrix and the two weight matrices, and writing 400 rows of the result. The reference computes
  `max(feat · weight_self + (adj · feat) · weight_neigh, 0)` on whole arrays. Over the extended reals a change of float
  format is the identity and a matrix product into a zero accumulator is the plain sum over the contracted index, so
  the two results differ only in the order of the two addends: they are one function `Cert.Spec.G` of the four arguments.

  The frames: the kernel's two programs (word level and idealized) run to the end with their arguments unchanged by
  the pipeline's launch with the feature matrix's share dealt to its two windows; the reference's frame is its run with
  the result dropped. The ideal pass rewrote nothing, so `preserves` is trivial. `algebraic`: the kernel's run leaves
  its result array at `G` of the arguments (the 25 blocks cover it, each the restriction of `G`), and the reference's
  run ends at its composed term, which read index by index is `G` again.
-/
import proofs.«163232_g29996051595531_retrytranche2_1041_4_alg».proof.Defs
import proofs.«163232_g29996051595531_retrytranche2_1041_4_alg».proof.Proof.Gen.Kernel
import proofs.«163232_g29996051595531_retrytranche2_1041_4_alg».proof.Proof.Gen.KernelIdeal
import proofs.«163232_g29996051595531_retrytranche2_1041_4_alg».proof.Proof.Gen.ReferenceIdeal
import proofs.«163232_g29996051595531_retrytranche2_1041_4_alg».proof.Proof.Gen.Pre_finite_inputs
import proofs.«163232_g29996051595531_retrytranche2_1041_4_alg».proof.Proof.Gen.ReferenceIdeal.Run
import proofs.«163232_g29996051595531_retrytranche2_1041_4_alg».proof.Proof.Gen.ReferenceIdeal.Read
import proofs.«163232_g29996051595531_retrytranche2_1041_4_alg».proof.Proof.KernelFrame
import proofs.«163232_g29996051595531_retrytranche2_1041_4_alg».proof.Proof.KernelIdealFrame
import proofs.«163232_g29996051595531_retrytranche2_1041_4_alg».proof.Proof.RefValue
import proofs.«163232_g29996051595531_retrytranche2_1041_4_alg».proof.Proof.ValueFinal

noncomputable section

namespace Cert.Proof

open Idealize.ShloMosaic Idealize.ShloMosaic.TcCoe Idealize.SL.Sem

theorem frame_kernel : Cert.frame_Kernel := fun m ρ _ => Cert.Kernel.Hand.frame m ρ

theorem frame_kernel_ideal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at `G` of the arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.HandValue.final m c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
